-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S2x200000 : Shape := ⟨2, ![2, 200000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : IVec S2x200000 32) (main_arg3 : FVec F S128x32 .f32) (main_arg4 : FVec F S32 .f32) (main_arg5 : FVec F S32x16 .f32) (main_arg6 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg3
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg5
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg6 main_v13 main_v16
-- ==== Kernel.lean ====
abbrev S100000x128 : Shape := ⟨2, ![100000, 128]⟩
abbrev S2x3200000 : Shape := ⟨2, ![2, 3200000]⟩
abbrev S2x200000 : Shape := ⟨2, ![2, 200000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S10000x128 : Shape := ⟨2, ![10000, 128]⟩
abbrev S10000x32 : Shape := ⟨2, ![10000, 32]⟩
abbrev S3300000x32 : Shape := ⟨2, ![3300000, 32]⟩
abbrev S1x32 : Shape := ⟨2, ![1, 32]⟩
abbrev S100000x16 : Shape := ⟨2, ![100000, 16]⟩
abbrev S10000x16 : Shape := ⟨2, ![10000, 16]⟩
abbrev S3300000x16 : Shape := ⟨2, ![3300000, 16]⟩
abbrev S1x16 : Shape := ⟨2, ![1, 16]⟩
abbrev S1x200000 : Shape := ⟨2, ![1, 200000]⟩
abbrev S200000 : Shape := ⟨1, ![200000]⟩
abbrev S200000x1 : Shape := ⟨2, ![200000, 1]⟩
abbrev S200000x16 : Shape := ⟨2, ![200000, 16]⟩
abbrev S20000x16 : Shape := ⟨2, ![20000, 16]⟩
abbrev S20000x1 : Shape := ⟨2, ![20000, 1]⟩
abbrev S20000 : Shape := ⟨1, ![20000]⟩

abbrev nBuf : Space → Nat
  | .hbm => 114
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S2x200000, .i32⟩
  | .hbm, ⟨3, _⟩ => ⟨S128x32, .f32⟩
  | .hbm, ⟨4, _⟩ => ⟨S32, .f32⟩
  | .hbm, ⟨5, _⟩ => ⟨S32x16, .f32⟩
  | .hbm, ⟨6, _⟩ => ⟨S16, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000, .f32⟩
  | .hbm, ⟨49, _⟩ => ⟨S3300000, .f32⟩
  | .hbm, ⟨50, _⟩ => ⟨S100000x32, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x32, .f32⟩
  | .hbm, ⟨60, _⟩ => ⟨S3300000x1, .f32⟩
  | .hbm, ⟨61, _⟩ => ⟨S3300000x32, .f32⟩
  | .hbm, ⟨62, _⟩ => ⟨S3300000x32, .f32⟩
  | .hbm, ⟨63, _⟩ => ⟨S_, .f32⟩
  | .hbm, ⟨64, _⟩ => ⟨S100000x32, .f32⟩
  | .hbm, ⟨65, _⟩ => ⟨S3300000x1, .i32⟩
  | .hbm, ⟨66, _⟩ => ⟨S100000x32, .f32⟩
  | .hbm, ⟨67, _⟩ => ⟨S1x32, .f32⟩
  | .hbm, ⟨68, _⟩ => ⟨S100000x32, .f32⟩
  | .hbm, ⟨69, _⟩ => ⟨S100000x32, .f32⟩
  | .hbm, ⟨70, _⟩ => ⟨S100000x16, .f32⟩
  | .hbm, ⟨71, _⟩ => ⟨S_, .i32⟩
  | .hbm, ⟨72, _⟩ => ⟨S3300000, .i32⟩
  | .hbm, ⟨73, _⟩ => ⟨S3300000, .i1⟩
  | .hbm, ⟨74, _⟩ => ⟨S_, .i32⟩
  | .hbm, ⟨75, _⟩ => ⟨S3300000, .i32⟩
  | .hbm, ⟨76, _⟩ => ⟨S3300000, .i32⟩
  | .hbm, ⟨77, _⟩ => ⟨S3300000, .i32⟩
  | .hbm, ⟨78, _⟩ => ⟨S3300000x1, .i32⟩
  | .hbm, ⟨79, _⟩ => ⟨S3300000x16, .f32⟩
  | .hbm, ⟨80, _⟩ => ⟨S3300000x1, .f32⟩
  | .hbm, ⟨81, _⟩ => ⟨S3300000x16, .f32⟩
  | .hbm, ⟨82, _⟩ => ⟨S3300000x16, .f32⟩
  | .hbm, ⟨83, _⟩ => ⟨S_, .f32⟩
  | .hbm, ⟨84, _⟩ => ⟨S100000x16, .f32⟩
  | .hbm, ⟨85, _⟩ => ⟨S3300000x1, .i32⟩
  | .hbm, ⟨86, _⟩ => ⟨S100000x16, .f32⟩
  | .hbm, ⟨87, _⟩ => ⟨S1x16, .f32⟩
  | .hbm, ⟨88, _⟩ => ⟨S100000x16, .f32⟩
  | .hbm, ⟨89, _⟩ => ⟨S100000x16, .f32⟩
  | .hbm, ⟨90, _⟩ => ⟨S1x200000, .i32⟩
  | .hbm, ⟨91, _⟩ => ⟨S200000, .i32⟩
  | .hbm, ⟨92, _⟩ => ⟨S_, .i32⟩
  | .hbm, ⟨93, _⟩ => ⟨S200000, .i32⟩
  | .hbm, ⟨94, _⟩ => ⟨S200000, .i1⟩
  | .hbm, ⟨95, _⟩ => ⟨S_, .i32⟩
  | .hbm, ⟨96, _⟩ => ⟨S200000, .i32⟩
  | .hbm, ⟨97, _⟩ => ⟨S200000, .i32⟩
  | .hbm, ⟨98, _⟩ => ⟨S200000, .i32⟩
  | .hbm, ⟨99, _⟩ => ⟨S200000x1, .i32⟩
  | .hbm, ⟨100, _⟩ => ⟨S200000x16, .f32⟩
  | .hbm, ⟨101, _⟩ => ⟨S1x200000, .i32⟩
  | .hbm, ⟨102, _⟩ => ⟨S200000, .i32⟩
  | .hbm, ⟨103, _⟩ => ⟨S_, .i32⟩
  | .hbm, ⟨104, _⟩ => ⟨S200000, .i32⟩
  | .hbm, ⟨105, _⟩ => ⟨S200000, .i1⟩
  | .hbm, ⟨106, _⟩ => ⟨S_, .i32⟩
  | .hbm, ⟨107, _⟩ => ⟨S200000, .i32⟩
  | .hbm, ⟨108, _⟩ => ⟨S200000, .i32⟩
  | .hbm, ⟨109, _⟩ => ⟨S200000, .i32⟩
  | .hbm, ⟨110, _⟩ => ⟨S200000x1, .i32⟩
  | .hbm, ⟨111, _⟩ => ⟨S200000x16, .f32⟩
  | .hbm, ⟨112, _⟩ => ⟨S200000x1, .f32⟩
  | .hbm, ⟨113, _⟩ => ⟨S200000, .f32⟩
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S32x16, .f32⟩
  | .local _ .vmem, ⟨8, _⟩ => ⟨S10000x16, .f32⟩
  | .local _ .vmem, ⟨9, _⟩ => ⟨S10000x16, .f32⟩
  | .local _ .vmem, ⟨10, _⟩ => ⟨S20000x16, .f32⟩
  | .local _ .vmem, ⟨11, _⟩ => ⟨S20000x16, .f32⟩
  | .local _ .vmem, ⟨12, _⟩ => ⟨S20000x16, .f32⟩
  | .local _ .vmem, ⟨13, _⟩ => ⟨S20000x16, .f32⟩
  | .local _ .vmem, ⟨14, _⟩ => ⟨S20000x1, .f32⟩
  | .local _ .vmem, ⟨15, _⟩ => ⟨S20000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_c_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_13 : Ref sig .tc := ⟨.hbm, 92, rfl⟩
abbrev main_v68 : Ref sig .tc := ⟨.hbm, 93, rfl⟩
abbrev main_v69 : Ref sig .tc := ⟨.hbm, 94, rfl⟩
abbrev main_c_14 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_c_15 : Ref sig .tc := ⟨.hbm, 103, rfl⟩
abbrev main_v77 : Ref sig .tc := ⟨.hbm, 104, rfl⟩
abbrev main_v78 : Ref sig .tc := ⟨.hbm, 105, rfl⟩
abbrev main_c_16 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S20000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S20000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S10000x32_S10000x32 : S10000x32.ShapeCasts S10000x32
  inb_S32x16_S32x16_0_0 : ∀ a, (![0, 0] : Fin 2 → Nat) a + S32x16.size a ≤ S32x16.size a
  h_S32x16 : 0 < S32x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  inb_S20000x16_S20000x16_0_0 : ∀ a, (![0, 0] : Fin 2 → Nat) a + S20000x16.size a ≤ S20000x16.size a
  h_S20000x16 : 0 < S20000x16.numel
  shapeCasts_S20000x16_S20000x16 : S20000x16.ShapeCasts S20000x16
  reduces_S20000x16_S20000 : S20000x16.Reduces [1] S20000
  shapeCasts_S20000_S20000x1 : S20000.ShapeCasts S20000x1
  inb_S20000x1_S20000x1_0_0 : ∀ a, (![0, 0] : Fin 2 → Nat) a + S20000x1.size a ≤ S20000x1.size a
  h_S20000x1 : 0 < S20000x1.numel
  shapeCasts_S200000x1_S200000 : S200000x1.ShapeCasts S200000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x32_S10000x32_1_0_0_1_n_n_wf : DotDims.WF S10000x128 S128x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S10000x32_S32x16_S10000x16_1_0_0_1_n_n_wf : DotDims.WF S10000x32 S32x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  gather_S100000x16_S200000x1_S200000x16_1_0_n_n_0_1_116_wf : GatherDims.WF S100000x16 S200000x1 S200000x16 [1] [0] [] [0] [] 1 ![1, 16]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x16.size a ≤ S32x16.size a
  hwx1_1 : ∀ i : grid1.Coords, EltTy.bits .f32 = 32 ∨ (Rect.block (s := S32x16) S32x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x16.size a ≤ S200000x16.size a
  hwx2_0 : ∀ i : grid2.Coords, EltTy.bits .f32 = 32 ∨ (Rect.block (s := S200000x16) S20000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S20000x16.size a ≤ S200000x16.size a
  hwx2_1 : ∀ i : grid2.Coords, EltTy.bits .f32 = 32 ∨ (Rect.block (s := S200000x16) S20000x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S20000x1.size a ≤ S200000x1.size a
  hwx2_2 : ∀ i : grid2.Coords, EltTy.bits .f32 = 32 ∨ (Rect.block (s := S200000x1) S20000x1.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def gather_S100000x16_S200000x1_S200000x16_1_0_n_n_0_1_116 : GatherDims S100000x16 S200000x1 S200000x16 where
  offsetDims := [1]
  collapsedSliceDims := [0]
  operandBatchingDims := []
  startIndicesBatchingDims := []
  startIndexMap := [0]
  indexVectorDim := 1
  sliceSizes := ![1, 16]
  wf := gather_S100000x16_S200000x1_S200000x16_1_0_n_n_0_1_116_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S32x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v74) S20000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v83) S20000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v84) S20000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S2x200000 : Shape := ⟨2, ![2, 200000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S1x3200000 : Shape := ⟨2, ![1, 3200000]⟩
abbrev S3200000 : Shape := ⟨1, ![3200000]⟩
abbrev S100000x32 : Shape := ⟨2, ![100000, 32]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x32 : Shape := ⟨2, ![3300000, 32]⟩
abbrev S1x32 : Shape := ⟨2, ![1, 32]⟩
abbrev S100000x16 : Shape := ⟨2, ![100000, 16]⟩
abbrev S3300000x16 : Shape := ⟨2, ![3300000, 16]⟩
abbrev S1x16 : Shape := ⟨2, ![1, 16]⟩
abbrev S1x200000 : Shape := ⟨2, ![1, 200000]⟩
abbrev S200000 : Shape := ⟨1, ![200000]⟩
abbrev S200000x1 : Shape := ⟨2, ![200000, 1]⟩
abbrev S200000x16 : Shape := ⟨2, ![200000, 16]⟩

abbrev nBuf : Space → Nat
  | .hbm => 157
  | .vmem => 0
  | .smem => 0
  | _ => 0

abbrev hbmTy0_0 (i : Nat) : BufTy := match i % 128 with
  | 0 => ⟨S100000x128, .f32⟩
  | 1 => ⟨S2x3200000, .i32⟩
  | 2 => ⟨S2x200000, .i32⟩
  | 3 => ⟨S128x32, .f32⟩
  | 4 => ⟨S32, .f32⟩
  | 5 => ⟨S32x16, .f32⟩
  | 6 => ⟨S16, .f32⟩
  | 7 => ⟨S1x3200000, .i32⟩
  | 8 => ⟨S3200000, .i32⟩
  | 9 => ⟨S1x3200000, .i32⟩
  | 10 => ⟨S3200000, .i32⟩
  | 11 => ⟨S100000x32, .f32⟩
  | 12 => ⟨S100000, .i32⟩
  | 13 => ⟨S3300000, .i32⟩
  | 14 => ⟨S3300000, .i32⟩
  | 15 => ⟨S_, .f32⟩
  | 16 => ⟨S3300000, .f32⟩
  | 17 => ⟨S_, .f32⟩
  | 18 => ⟨S100000, .f32⟩
  | 19 => ⟨S3300000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S3300000, .i32⟩
  | 34 => ⟨S3300000, .i1⟩
  | 35 => ⟨S_, .i32⟩
  | 36 => ⟨S3300000, .i32⟩
  | 37 => ⟨S3300000, .i32⟩
  | 38 => ⟨S3300000, .i32⟩
  | 39 => ⟨S3300000x1, .i32⟩
  | 40 => ⟨S3300000, .f32⟩
  | 41 => ⟨S_, .i32⟩
  | 42 => ⟨S3300000, .i32⟩
  | 43 => ⟨S3300000, .i1⟩
  | 44 => ⟨S_, .i32⟩
  | 45 => ⟨S3300000, .i32⟩
  | 46 => ⟨S3300000, .i32⟩
  | 47 => ⟨S3300000, .i32⟩
  | 48 => ⟨S3300000x1, .i32⟩
  | 49 => ⟨S3300000, .f32⟩
  | 50 => ⟨S3300000, .f32⟩
  | 51 => ⟨S_, .i32⟩
  | 52 => ⟨S3300000, .i32⟩
  | 53 => ⟨S3300000, .i1⟩
  | 54 => ⟨S_, .i32⟩
  | 55 => ⟨S3300000, .i32⟩
  | 56 => ⟨S3300000, .i32⟩
  | 57 => ⟨S3300000, .i32⟩
  | 58 => ⟨S3300000x1, .i32⟩
  | 59 => ⟨S3300000x32, .f32⟩
  | 60 => ⟨S3300000x1, .f32⟩
  | 61 => ⟨S3300000x32, .f32⟩
  | 62 => ⟨S3300000x32, .f32⟩
  | 63 => ⟨S_, .f32⟩
  | 64 => ⟨S100000x32, .f32⟩
  | 65 => ⟨S3300000x1, .i32⟩
  | 66 => ⟨S100000x32, .f32⟩
  | 67 => ⟨S1x32, .f32⟩
  | 68 => ⟨S100000x32, .f32⟩
  | 69 => ⟨S100000x32, .f32⟩
  | 70 => ⟨S_, .f32⟩
  | 71 => ⟨S100000x32, .f32⟩
  | 72 => ⟨S100000x32, .f32⟩
  | 73 => ⟨S100000x16, .f32⟩
  | 74 => ⟨S100000, .i32⟩
  | 75 => ⟨S3300000, .i32⟩
  | 76 => ⟨S3300000, .i32⟩
  | 77 => ⟨S_, .f32⟩
  | 78 => ⟨S3300000, .f32⟩
  | 79 => ⟨S_, .f32⟩
  | 80 => ⟨S100000, .f32⟩
  | 81 => ⟨S3300000x1, .i32⟩
  | 82 => ⟨S100000, .f32⟩
  | 83 => ⟨S_, .f32⟩
  | 84 => ⟨S100000, .f32⟩
  | 85 => ⟨S100000, .i1⟩
  | 86 => ⟨S_, .f32⟩
  | 87 => ⟨S100000, .f32⟩
  | 88 => ⟨S100000, .f32⟩
  | 89 => ⟨S100000, .f32⟩
  | 90 => ⟨S_, .f32⟩
  | 91 => ⟨S_, .f32⟩
  | 92 => ⟨S100000, .f32⟩
  | 93 => ⟨S100000, .f32⟩
  | 94 => ⟨S_, .i32⟩
  | 95 => ⟨S3300000, .i32⟩
  | 96 => ⟨S3300000, .i1⟩
  | 97 => ⟨S_, .i32⟩
  | 98 => ⟨S3300000, .i32⟩
  | 99 => ⟨S3300000, .i32⟩
  | 100 => ⟨S3300000, .i32⟩
  | 101 => ⟨S3300000x1, .i32⟩
  | 102 => ⟨S3300000, .f32⟩
  | 103 => ⟨S_, .i32⟩
  | 104 => ⟨S3300000, .i32⟩
  | 105 => ⟨S3300000, .i1⟩
  | 106 => ⟨S_, .i32⟩
  | 107 => ⟨S3300000, .i32⟩
  | 108 => ⟨S3300000, .i32⟩
  | 109 => ⟨S3300000, .i32⟩
  | 110 => ⟨S3300000x1, .i32⟩
  | 111 => ⟨S3300000, .f32⟩
  | 112 => ⟨S3300000, .f32⟩
  | 113 => ⟨S_, .i32⟩
  | 114 => ⟨S3300000, .i32⟩
  | 115 => ⟨S3300000, .i1⟩
  | 116 => ⟨S_, .i32⟩
  | 117 => ⟨S3300000, .i32⟩
  | 118 => ⟨S3300000, .i32⟩
  | 119 => ⟨S3300000, .i32⟩
  | 120 => ⟨S3300000x1, .i32⟩
  | 121 => ⟨S3300000x16, .f32⟩
  | 122 => ⟨S3300000x1, .f32⟩
  | 123 => ⟨S3300000x16, .f32⟩
  | 124 => ⟨S3300000x16, .f32⟩
  | 125 => ⟨S_, .f32⟩
  | 126 => ⟨S100000x16, .f32⟩
  | 127 => ⟨S3300000x1, .i32⟩
  | _ => ⟨S100000x128, .f32⟩

abbrev hbmTy0_1 (i : Nat) : BufTy := match i % 128 with
  | 0 => ⟨S100000x16, .f32⟩
  | 1 => ⟨S1x16, .f32⟩
  | 2 => ⟨S100000x16, .f32⟩
  | 3 => ⟨S100000x16, .f32⟩
  | 4 => ⟨S1x200000, .i32⟩
  | 5 => ⟨S200000, .i32⟩
  | 6 => ⟨S_, .i32⟩
  | 7 => ⟨S200000, .i32⟩
  | 8 => ⟨S200000, .i1⟩
  | 9 => ⟨S_, .i32⟩
  | 10 => ⟨S200000, .i32⟩
  | 11 => ⟨S200000, .i32⟩
  | 12 => ⟨S200000, .i32⟩
  | 13 => ⟨S200000x1, .i32⟩
  | 14 => ⟨S200000x16, .f32⟩
  | 15 => ⟨S1x200000, .i32⟩
  | 16 => ⟨S200000, .i32⟩
  | 17 => ⟨S_, .i32⟩
  | 18 => ⟨S200000, .i32⟩
  | 19 => ⟨S200000, .i1⟩
  | 20 => ⟨S_, .i32⟩
  | 21 => ⟨S200000, .i32⟩
  | 22 => ⟨S200000, .i32⟩
  | 23 => ⟨S200000, .i32⟩
  | 24 => ⟨S200000x1, .i32⟩
  | 25 => ⟨S200000x16, .f32⟩
  | 26 => ⟨S200000x16, .f32⟩
  | 27 => ⟨S_, .f32⟩
  | 28 => ⟨S200000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call1_cst : Ref sig .tc := ⟨.hbm, 70, rfl⟩
abbrev main_call1_v0 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_12 : Ref sig .tc := ⟨.hbm, 83, rfl⟩
abbrev main_v58 : Ref sig .tc := ⟨.hbm, 84, rfl⟩
abbrev main_v59 : Ref sig .tc := ⟨.hbm, 85, rfl⟩
abbrev main_cst_13 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_14 : Ref sig .tc := ⟨.hbm, 90, rfl⟩
abbrev main_call2_v0 : Ref sig .tc := ⟨.hbm, 91, rfl⟩
abbrev main_call2_v1 : Ref sig .tc := ⟨.hbm, 92, rfl⟩
abbrev main_v63 : Ref sig .tc := ⟨.hbm, 93, rfl⟩
abbrev main_c_15 : Ref sig .tc := ⟨.hbm, 94, rfl⟩
abbrev main_v64 : Ref sig .tc := ⟨.hbm, 95, rfl⟩
abbrev main_v65 : Ref sig .tc := ⟨.hbm, 96, rfl⟩
abbrev main_c_16 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_17 : Ref sig .tc := ⟨.hbm, 103, rfl⟩
abbrev main_v71 : Ref sig .tc := ⟨.hbm, 104, rfl⟩
abbrev main_v72 : Ref sig .tc := ⟨.hbm, 105, rfl⟩
abbrev main_c_18 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_19 : Ref sig .tc := ⟨.hbm, 113, rfl⟩
abbrev main_v79 : Ref sig .tc := ⟨.hbm, 114, rfl⟩
abbrev main_v80 : Ref sig .tc := ⟨.hbm, 115, rfl⟩
abbrev main_c_20 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_21 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_c_22 : Ref sig .tc := ⟨.hbm, 134, rfl⟩
abbrev main_v97 : Ref sig .tc := ⟨.hbm, 135, rfl⟩
abbrev main_v98 : Ref sig .tc := ⟨.hbm, 136, rfl⟩
abbrev main_c_23 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_c_24 : Ref sig .tc := ⟨.hbm, 145, rfl⟩
abbrev main_v106 : Ref sig .tc := ⟨.hbm, 146, rfl⟩
abbrev main_v107 : Ref sig .tc := ⟨.hbm, 147, rfl⟩
abbrev main_c_25 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_26 : Ref sig .tc := ⟨.hbm, 155, rfl⟩
abbrev main_v114 : Ref sig .tc := ⟨.hbm, 156, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reducesTo_S200000x16_S200000_d1 : S200000x16.ReducesTo [1] S200000
  h_S_ : 0 < S_.numel
  dot_S100000x128_S128x32_S100000x32_1_0_0_1_n_n_wf : DotDims.WF S100000x128 S128x32 S100000x32 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x16_S100000x16_1_0_0_1_n_n_wf : DotDims.WF S100000x32 S32x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  gather_S100000x16_S200000x1_S200000x16_1_0_n_n_0_1_116_wf : GatherDims.WF S100000x16 S200000x1 S200000x16 [1] [0] [] [0] [] 1 ![1, 16]

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def gather_S100000x16_S200000x1_S200000x16_1_0_n_n_0_1_116 : GatherDims S100000x16 S200000x1 S200000x16 where
  offsetDims := [1]
  collapsedSliceDims := [0]
  operandBatchingDims := []
  startIndicesBatchingDims := []
  startIndexMap := [0]
  indexVectorDim := 1
  sliceSizes := ![1, 16]
  wf := gather_S100000x16_S200000x1_S200000x16_1_0_n_n_0_1_116_wf

class Facts : Prop extends Facts₀ where

variable [Facts]
-- ==== Proof.HostStages.lean ====
/-
  The host operations of the kernel's program, stretch by stretch, are the reference's operations.

  Around its three pallas_calls the kernel's program runs, on the host, exactly the operations the reference runs: the
  edge list with a self-loop per node (`s`, `d`), the in-degrees by a scatter-add of ones, their inverse square roots where
  positive, the per-edge weight `norm = inv_sqrt[s] · inv_sqrt[d]`; after each dense product the gather of the source rows,
  their scaling by `norm`, the scatter-add into the destination rows and the bias; and the two gathers of the decoder.  The
  kernel's program computes `s`, `d` and `norm` once, the reference once per layer: the same operations of the same
  argument, hence the same arrays (`again_src`, `again_dst`, `again_norm`).

  Each statement below is about one stretch, run from ANY buffer contents `V`: where the buffers the stretch reads hold
  the reference's values of the corresponding stages, the buffer it ends in holds the reference's value of the stage
  that ends it.  Nothing is read at an index here: a stretch and the reference's stages are the same tree of operations,
  and that is all that is used.  The float family is arbitrary.
-/
import proofs.«159415_j32315333935772_1_alg».proof.Proof.Gen.KernelIdeal.Launch
import proofs.«159415_j32315333935772_1_alg».proof.Proof.RefRead
import Idealize.ShloMosaic.Lib.StableHlo.Run

set_option maxRecDepth 16384

noncomputable section

namespace Cert.GcnValue.HostStages

open Cert.KernelIdeal Cert.KernelIdeal.Gen Cert.ReferenceIdeal.ReadCopy
open Idealize.ShloMosaic Idealize.ShloMosaic.TcCoe Idealize.SL.Sem Idealize.ShloMosaic.StableHlo

variable {F : FTy → Type} [FloatOps F]

/-! ## The reference computes the edge list and the edge weights twice -/

/-- The second layer's source list is the first layer's. -/
theorem again_src (x1 : (⟨S2x3200000, .i32⟩ : BufTy).Contents (Elt F)) :
    val_main_v52 (F := F) x1 = val_main_v6 (F := F) x1 := rfl

/-- The second layer's destination list is the first layer's. -/
theorem again_dst (x1 : (⟨S2x3200000, .i32⟩ : BufTy).Contents (Elt F)) :
    val_main_v53 (F := F) x1 = val_main_v7 (F := F) x1 := rfl

/-- The second layer's edge weights are the first layer's. -/
theorem again_norm (x1 : (⟨S2x3200000, .i32⟩ : BufTy).Contents (Elt F)) :
    val_main_v78 (F := F) x1 = val_main_v32 (F := F) x1 := rfl

variable (V : Valuation τ sig (Elt F))

/-! ## Before the first pallas_call: the edge list and the edge weights -/

/-- The source list with its self-loops. -/
theorem src_eq (x1 : (⟨S2x3200000, .i32⟩ : BufTy).Contents (Elt F)) (h1 : V (Proc.devRef .tc main_arg1) = x1) :
    after hostOps0_2 (after hostOps0_1 (after hostOps0 V)) (Proc.devRef .tc main_v5) = val_main_v6 (F := F) x1 := by
  subst h1
  dsimp only [hostOps0, hostOps0_1, hostOps0_2]
  after_results_simp
  rfl

/-- The destination list with its self-loops. -/
theorem dst_eq (x1 : (⟨S2x3200000, .i32⟩ : BufTy).Contents (Elt F)) (h1 : V (Proc.devRef .tc main_arg1) = x1) :
    after hostOps0_2 (after hostOps0_1 (after hostOps0 V)) (Proc.devRef .tc main_v6) = val_main_v7 (F := F) x1 := by
  subst h1
  dsimp only [hostOps0, hostOps0_1, hostOps0_2]
  after_results_simp
  rfl

/-- The per-edge weights. -/
theorem norm_eq (x1 : (⟨S2x3200000, .i32⟩ : BufTy).Contents (Elt F)) (h1 : V (Proc.devRef .tc main_arg1) = x1) :
    after hostOps0_2 (after hostOps0_1 (after hostOps0 V)) (Proc.devRef .tc main_v31) = val_main_v32 (F := F) x1 := by
  subst h1
  dsimp only [hostOps0, hostOps0_1, hostOps0_2]
  after_results_simp
  rfl

/-- These operations leave the other arguments where they are. -/
theorem kept_before_first :
    after hostOps0_2 (after hostOps0_1 (after hostOps0 V)) (Proc.devRef .tc main_arg0) = V (Proc.devRef .tc main_arg0)
    ∧ after hostOps0_2 (after hostOps0_1 (after hostOps0 V)) (Proc.devRef .tc main_arg2) = V (Proc.devRef .tc main_arg2)
    ∧ after hostOps0_2 (after hostOps0_1 (after hostOps0 V)) (Proc.devRef .tc main_arg3) = V (Proc.devRef .tc main_arg3)
    ∧ after hostOps0_2 (after hostOps0_1 (after hostOps0 V)) (Proc.devRef .tc main_arg4) = V (Proc.devRef .tc main_arg4)
    ∧ after hostOps0_2 (after hostOps0_1 (after hostOps0 V)) (Proc.devRef .tc main_arg5) = V (Proc.devRef .tc main_arg5)
    ∧ after hostOps0_2 (after hostOps0_1 (after hostOps0 V)) (Proc.devRef .tc main_arg6) = V (Proc.devRef .tc main_arg6) := by
  refine ⟨?_, ?_, ?_, ?_, ?_, ?_⟩ <;> (dsimp only [hostOps0, hostOps0_1, hostOps0_2]; after_results_simp)

/-! ## Between the first and the second pallas_call: the first layer's aggregation -/

/-- Where the stretch finds the edge list, the edge weights, the first dense product and the bias, it leaves the first
    layer's output: the scaled source rows added into the destination rows, plus the bias. -/
theorem layer1_eq (x0 : (⟨S100000x128, .f32⟩ : BufTy).Contents (Elt F)) (x1 : (⟨S2x3200000, .i32⟩ : BufTy).Contents (Elt F))
    (x3 : (⟨S128x32, .f32⟩ : BufTy).Contents (Elt F)) (x4 : (⟨S32, .f32⟩ : BufTy).Contents (Elt F))
    (h5 : V (Proc.devRef .tc main_v5) = val_main_v6 (F := F) x1)
    (h6 : V (Proc.devRef .tc main_v6) = val_main_v7 (F := F) x1)
    (h31 : V (Proc.devRef .tc main_v31) = val_main_v32 (F := F) x1)
    (h32 : V (Proc.devRef .tc main_v32) = val_main_v4 (F := F) x0 x3)
    (h4 : V (Proc.devRef .tc main_arg4) = x4) :
    after hostOps1 V (Proc.devRef .tc main_v48) = val_main_v48 (F := F) x0 x1 x3 x4 := by
  subst h4
  dsimp only [hostOps1]
  after_results_simp
  rw [h5, h6, h31, h32]
  rfl

/-- These operations leave the edge list, the edge weights and the later arguments where they are. -/
theorem kept_between :
    after hostOps1 V (Proc.devRef .tc main_v5) = V (Proc.devRef .tc main_v5)
    ∧ after hostOps1 V (Proc.devRef .tc main_v6) = V (Proc.devRef .tc main_v6)
    ∧ after hostOps1 V (Proc.devRef .tc main_v31) = V (Proc.devRef .tc main_v31)
    ∧ after hostOps1 V (Proc.devRef .tc main_arg2) = V (Proc.devRef .tc main_arg2)
    ∧ after hostOps1 V (Proc.devRef .tc main_arg5) = V (Proc.devRef .tc main_arg5)
    ∧ after hostOps1 V (Proc.devRef .tc main_arg6) = V (Proc.devRef .tc main_arg6) := by
  refine ⟨?_, ?_, ?_, ?_, ?_, ?_⟩ <;> (dsimp only [hostOps1]; after_results_simp)

/-! ## Between the second and the third pallas_call: the second layer's aggregation and the decoder's gathers -/

/-- Where the stretch finds the edge list, the edge weights, the second dense product, the bias and the candidate edges,
    it leaves the embeddings of the candidates' first endpoints … -/
theorem left_eq (x0 : (⟨S100000x128, .f32⟩ : BufTy).Contents (Elt F)) (x1 : (⟨S2x3200000, .i32⟩ : BufTy).Contents (Elt F))
    (x2 : (⟨S2x200000, .i32⟩ : BufTy).Contents (Elt F))
    (x3 : (⟨S128x32, .f32⟩ : BufTy).Contents (Elt F)) (x4 : (⟨S32, .f32⟩ : BufTy).Contents (Elt F))
    (x5 : (⟨S32x16, .f32⟩ : BufTy).Contents (Elt F)) (x6 : (⟨S16, .f32⟩ : BufTy).Contents (Elt F))
    (h5 : V (Proc.devRef .tc main_v5) = val_main_v52 (F := F) x1)
    (h6 : V (Proc.devRef .tc main_v6) = val_main_v53 (F := F) x1)
    (h31 : V (Proc.devRef .tc main_v31) = val_main_v78 (F := F) x1)
    (h49 : V (Proc.devRef .tc main_v49) = val_main_v50 (F := F) x0 x1 x3 x4 x5)
    (hb : V (Proc.devRef .tc main_arg6) = x6) (he : V (Proc.devRef .tc main_arg2) = x2) :
    after hostOps2 V (Proc.devRef .tc main_v74) = val_main_v103 (F := F) x0 x1 x2 x3 x4 x5 x6 := by
  subst hb he
  dsimp only [hostOps2]
  after_results_simp
  rw [h5, h6, h31, h49]
  rfl

/-- … and of their second endpoints. -/
theorem right_eq (x0 : (⟨S100000x128, .f32⟩ : BufTy).Contents (Elt F)) (x1 : (⟨S2x3200000, .i32⟩ : BufTy).Contents (Elt F))
    (x2 : (⟨S2x200000, .i32⟩ : BufTy).Contents (Elt F))
    (x3 : (⟨S128x32, .f32⟩ : BufTy).Contents (Elt F)) (x4 : (⟨S32, .f32⟩ : BufTy).Contents (Elt F))
    (x5 : (⟨S32x16, .f32⟩ : BufTy).Contents (Elt F)) (x6 : (⟨S16, .f32⟩ : BufTy).Contents (Elt F))
    (h5 : V (Proc.devRef .tc main_v5) = val_main_v52 (F := F) x1)
    (h6 : V (Proc.devRef .tc main_v6) = val_main_v53 (F := F) x1)
    (h31 : V (Proc.devRef .tc main_v31) = val_main_v78 (F := F) x1)
    (h49 : V (Proc.devRef .tc main_v49) = val_main_v50 (F := F) x0 x1 x3 x4 x5)
    (hb : V (Proc.devRef .tc main_arg6) = x6) (he : V (Proc.devRef .tc main_arg2) = x2) :
    after hostOps2 V (Proc.devRef .tc main_v83) = val_main_v112 (F := F) x0 x1 x2 x3 x4 x5 x6 := by
  subst hb he
  dsimp only [hostOps2]
  after_results_simp
  rw [h5, h6, h31, h49]
  rfl

/-! ## After the third pallas_call: the column of sums flattened -/

/-- The last operation reads the 200000 × 1 column as a vector of 200000. -/
theorem flat_eq : after hostOps3 V (Proc.devRef .tc main_v85)
    = shapeCast S200000 (V (Proc.devRef .tc main_v84)) shapeCasts_S200000x1_S200000 := by
  dsimp only [hostOps3]
  after_results_simp
  rfl

end Cert.GcnValue.HostStages

end
-- ==== Proof.LibPlainMatmul.lean ====
import Idealize.ShloMosaic.PureOps.Ideal.Laws
import Idealize.ShloMosaic.Lib.ValueIdx

/-!
# A rows-by-columns matrix product into a zero accumulator, read at one entry

For the plain dimension numbers (`DotDims.plain M K N`: an `M × K` matrix times a `K × N` matrix, no batch axis) the
entry `(r, n)` of the product over the extended reals is `Σₖ lhs (r, k) · rhs (k, n)`.
-/

noncomputable section

namespace Idealize.ShloMosaic.PlainMatmul

open Idealize.ShloMosaic Idealize.ShloMosaic.ValueIdx

/-- The left operand's row coordinate at an output index is the output's row. -/
theorem lhs_plain_0 (M K N : Nat) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left operand's column coordinate is the contracted coordinate. -/
theorem lhs_plain_1 (M K N : Nat) (j : (⟨2, ![M, N]⟩ : Shape).Idx) (q : (DotDims.plain M K N).contr.Idx) :
    ((DotDims.plain M K N).lhsIdx j q 1).val = (q ⟨0, Nat.zero_lt_one⟩).val :=
  (DotDims.plain M K N).lhsIdx_val_of_single rfl j q

/-- The right operand's row coordinate is the contracted coordinate. -/
theorem rhs_plain_0 (M K N : Nat) (j : (⟨2, ![M, N]⟩ : Shape).Idx) (q : (DotDims.plain M K N).contr.Idx) :
    ((DotDims.plain M K N).rhsIdx j q 0).val = (q ⟨0, Nat.zero_lt_one⟩).val :=
  (DotDims.plain M K N).rhsIdx_val_of_single rfl j q

/-- The right operand's column coordinate at an output index is the output's column. -/
theorem rhs_plain_1 (M K N : Nat) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- The matrix unit's product with plain dimension numbers into the zero splat, at the entry `(r, n)`: the sum over the
    contracted coordinate `k` of `lhs (r, k) · rhs (k, n)`. -/
theorem matmul_plain_zero_apply (M K N : Nat) {φ₁ φ₂ : FTy} (prec : Option ContractPrecision)
    (lhs : FVec Ideal ⟨2, ![M, K]⟩ φ₁) (rhs : FVec Ideal ⟨2, ![K, N]⟩ φ₂) (r : Fin M) (n : Fin N) :
    FloatOps.matmul (DotDims.plain M K N) prec lhs rhs (constant ⟨2, ![M, N]⟩ .f32 0x00000000#32) (ix2 r n)
      = ∑ k : Fin K, lhs (ix2 r k) * rhs (ix2 k n) := by
  rw [Ideal.matmul_constant_zero_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r n) ((ValueIdx.contrEquiv1 (DotDims.plain M K N) K rfl rfl).symm k)
      = ix2 r k := funext fun a => Fin.ext (by
    match a with
    | ⟨0, _⟩ => exact lhs_plain_0 M K N _ _
    | ⟨1, _⟩ => exact (lhs_plain_1 M K N _ _).trans hk)
  have er : (DotDims.plain M K N).rhsIdx (ix2 r n) ((ValueIdx.contrEquiv1 (DotDims.plain M K N) K rfl rfl).symm k)
      = ix2 k n := funext fun a => Fin.ext (by
    match a with
    | ⟨0, _⟩ => exact (rhs_plain_0 M K N _ _).trans hk
    | ⟨1, _⟩ => exact rhs_plain_1 M K N _ _)
  rw [el, er]

end Idealize.ShloMosaic.PlainMatmul

end
-- ==== Proof.Layer1Product.lean ====
/-
  The first layer's dense product, as the first pallas_call computes it.

  The call walks the 100000 rows of `x` in ten blocks of 10000 rows.  At block `t` it multiplies the 10000 × 128 block of
  `x` by the whole 128 × 32 weight matrix into a zero accumulator and writes the 10000 × 32 result to rows
  `10000·t … 10000·t + 9999` of the output.  The narrowing of both operands to bfloat16 is the identity on the extended reals,
  so entry `(r, n)` of block `t` is `Σₖ x (10000·t + r, k) · w (k, n)`.  The ten blocks tile the output, hence the output
  array is, entry by entry, the one function `rowsTimes x w (i, n) = Σₖ x (i, k) · w (k, n)`.
-/
import proofs.«159415_j32315333935772_1_alg».proof.Proof.Gen.KernelIdeal.Frame
import proofs.«159415_j32315333935772_1_alg».proof.Proof.LibPlainMatmul
import Idealize.ShloMosaic.Lib.Pipeline.Value
import Idealize.ShloMosaic.Lib.ValueIdx
import Idealize.ShloMosaic.PureOps.Ideal.Laws

set_option maxRecDepth 16384

noncomputable section

open scoped BigOperators

namespace Cert.GcnValue.Layer1Product

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- A 100000 × 128 matrix times a 128 × 32 matrix over the extended reals: entry `(i, n)` is `Σₖ x (i, k) · w (k, n)`. -/
def rowsTimes (x : S100000x128.Idx → EReal) (w : S128x32.Idx → EReal) : S100000x32.Idx → EReal :=
  fun i => ∑ k : Fin 128, x (ix2 (⟨(i 0).val, (i 0).isLt⟩ : Fin 100000) k) * w (ix2 k (⟨(i 1).val, (i 1).isLt⟩ : Fin 32))

/-- The block product's dimension numbers are the plain rows-by-columns ones. -/
theorem dims_plain : dot_S10000x128_S128x32_S10000x32_1_0_0_1_n_n = DotDims.plain 10000 128 32 := rfl

/-- One block's product at the entry `(r, n)`: the sum over the contracted coordinate. -/
theorem block_entry (x0 : Vec Ideal S10000x128 .f32) (x1 : Vec Ideal S128x32 .f32) (r : Fin 10000) (n : Fin 32) :
    k0_pay1 (F := Ideal) x0 x1 (ix2 r n) = ∑ k : Fin 128, x0 (ix2 r k) * x1 (ix2 k n) := by
  unfold k0_pay1
  exact PlainMatmul.matmul_plain_zero_apply 10000 128 32 none _ _ r n

theorem origin : (![0, 0] : Fin 2 → Nat) = fun _ => 0 := funext fun a => by fin_cases a <;> rfl

/-- Where the three windows' blocks sit at point `t`: the row blocks of `x` and of the output move together, the weight
    matrix is one block. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block of the output is some point's. -/
theorem block_onto : ∀ q : Fin 10, ∃ t : Fin cfg0.N, win0_2.index t = ![q.val, 0] :=
  (by decide +kernel : ∀ q : Fin 10, ∃ t : Fin grid0.N, win0_2.index t = ![q.val, 0])

variable (V : (c : Dev nD) → (b : Ref sig .tc) → Buf (Elt Ideal) ((c : Thread nD τ).loc b))

/-- What point `t` writes back is block `t` of the whole product of the arrays the region finds. -/
theorem flushed_eq (c : Dev nD) (t : Fin cfg0.N) :
    (dat0 V c).flushed 2 t = ((cfg0.win 2).blk t).view.read (Elt Ideal) (rowsTimes (V c main_arg0) (V c main_arg3)) := by
  show (cfg0.win 2).cut (grid0.coords t) ((dat0 V c).after 2 t) = _
  rw [after0_2]
  unfold out0_2
  rw [View.canon_unit_zero origin]
  simp only [View.ld_unit_zero (S := S10000x128) origin, View.ld_unit_zero (S := S128x32) origin]
  obtain ⟨e0, e1, e2, e3, e4, e5⟩ := block_indices t
  funext j
  obtain ⟨r, n, rfl⟩ : ∃ (r : Fin 10000) (n : Fin 32), j = ix2 r n := ⟨j 0, j 1, eq_ix2 j⟩
  show k0_pay1 (F := Ideal) (iblk0 V c 0 t) (iblk0 V c 1 t) (ix2 r n)
    = rowsTimes (V c main_arg0) (V c main_arg3) (((cfg0.win 2).blk t).view.emb (ix2 r n))
  rw [block_entry]
  unfold rowsTimes
  refine Finset.sum_congr rfl fun k _ => ?_
  have hx : iblk0 V c 0 t (ix2 r k) = V c main_arg0 (ix2 (⟨((((cfg0.win 2).blk t).view.emb (ix2 r n)) 0).val, ((((cfg0.win 2).blk t).view.emb (ix2 r n)) 0).isLt⟩ : Fin 100000) k) := by
    show V c main_arg0 (((cfg0.win 0).blk t).view.emb (ix2 r k)) = _
    refine congrArg (V c main_arg0) (funext fun a => Fin.ext ?_)
    match a with
    | ⟨0, _⟩ => show win0_0.index t (0 : Fin 2) * 10000 + 1 * r.val = win0_2.index t (0 : Fin 2) * 10000 + 1 * r.val; omega
    | ⟨1, _⟩ => show win0_0.index t (1 : Fin 2) * 128 + 1 * k.val = k.val; omega
  have hw : iblk0 V c 1 t (ix2 k n) = V c main_arg3 (ix2 k (⟨((((cfg0.win 2).blk t).view.emb (ix2 r n)) 1).val, ((((cfg0.win 2).blk t).view.emb (ix2 r n)) 1).isLt⟩ : Fin 32)) := by
    show V c main_arg3 (((cfg0.win 1).blk t).view.emb (ix2 k n)) = _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 32 + 1 * n.val = win0_2.index t (1 : Fin 2) * 32 + 1 * n.val; omega
  rw [hx, hw]

/-- An index of the output is in point `t`'s block iff each coordinate is in the block's range on its axis. -/
theorem mem_block (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v32).slice (win0_2.rect t)).set ↔ _
  rw [View.set_slice_whole, Rect.mem_set_unit]
  exact Iff.rfl

/-- The ten row blocks cover the output: row `i` lies in block `i / 10000`. -/
theorem covered (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  obtain ⟨t, ht⟩ := block_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 32 ≤ (i 1).val ∧ (i 1).val < win0_2.index t (1 : Fin 2) * 32 + 32; omega

/-- After the region its output array is the whole product of the two arrays it found on entry. -/
theorem output_eq (c : Dev nD) :
    (dat0 V c).arrAt 2 cfg0.N = rowsTimes (V c main_arg0) (V c main_arg3) :=
  (dat0 V c).arrAt_eq_of_cover 2 (rowsTimes (V c main_arg0) (V c main_arg3)) (fun t _ => flushed_eq V c t) covered

end Cert.GcnValue.Layer1Product

end
-- ==== Proof.Layer2Product.lean ====
/-
  The second layer's dense product with the rectifier fused in, as the second pallas_call computes it.

  The call walks the 100000 rows of the first layer's output `h` in ten blocks of 10000 rows.  At block `t` it replaces every
  entry of the 10000 × 32 block by its maximum with zero, multiplies by the whole 32 × 16 weight matrix into a zero
  accumulator and writes the 10000 × 16 result to rows `10000·t … 10000·t + 9999` of the output.  The narrowing to bfloat16 is
  the identity on the extended reals, so entry `(r, n)` of block `t` is `Σₖ max (h (10000·t + r, k)) 0 · w (k, n)`, and since
  the ten blocks tile the output, the output array is the one function
  `reluRowsTimes h w (i, n) = Σₖ max (h (i, k)) 0 · w (k, n)`.  The zero is kept as the float pattern it is printed as.
-/
import proofs.«159415_j32315333935772_1_alg».proof.Proof.Gen.KernelIdeal.Frame
import proofs.«159415_j32315333935772_1_alg».proof.Proof.LibPlainMatmul
import Idealize.ShloMosaic.Lib.Pipeline.Value
import Idealize.ShloMosaic.Lib.ValueIdx
import Idealize.ShloMosaic.PureOps.Ideal.Laws

set_option maxRecDepth 16384

noncomputable section

open scoped BigOperators

namespace Cert.GcnValue.Layer2Product

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The rectified rows of a 100000 × 32 matrix times a 32 × 16 matrix over the extended reals: entry `(i, n)` is
    `Σₖ max (h (i, k)) 0 · w (k, n)`. -/
def reluRowsTimes (h : S100000x32.Idx → EReal) (w : S32x16.Idx → EReal) : S100000x16.Idx → EReal :=
  fun i => ∑ k : Fin 32, max (h (ix2 (⟨(i 0).val, (i 0).isLt⟩ : Fin 100000) k)) (Ideal.ofBits .f32 0x00000000#32)
    * w (ix2 k (⟨(i 1).val, (i 1).isLt⟩ : Fin 16))

/-- One block's rectified product at the entry `(r, n)`: the sum over the contracted coordinate. -/
theorem block_entry (x0 : Vec Ideal S10000x32 .f32) (x1 : Vec Ideal S32x16 .f32) (r : Fin 10000) (n : Fin 16) :
    k1_pay1 (F := Ideal) x0 x1 (ix2 r n)
      = ∑ k : Fin 32, max (x0 (ix2 r k)) (Ideal.ofBits .f32 0x00000000#32) * x1 (ix2 k n) := by
  unfold k1_pay1
  rw [shapeCast_self]
  refine (PlainMatmul.matmul_plain_zero_apply 10000 32 16 none _ _ r n).trans ?_
  exact Finset.sum_congr rfl fun k _ => rfl

theorem origin : (![0, 0] : Fin 2 → Nat) = fun _ => 0 := funext fun a => by fin_cases a <;> rfl

/-- Where the three windows' blocks sit at point `t`: the row blocks of `h` and of the output move together, the weight
    matrix is one block. -/
theorem block_indices : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every row block of the output is some point's. -/
theorem block_onto : ∀ q : Fin 10, ∃ t : Fin cfg1.N, win1_2.index t = ![q.val, 0] :=
  (by decide +kernel : ∀ q : Fin 10, ∃ t : Fin grid1.N, win1_2.index t = ![q.val, 0])

variable (V : (c : Dev nD) → (b : Ref sig .tc) → Buf (Elt Ideal) ((c : Thread nD τ).loc b))

/-- What point `t` writes back is block `t` of the whole rectified product of the arrays the region finds. -/
theorem flushed_eq (c : Dev nD) (t : Fin cfg1.N) :
    (dat1 V c).flushed 2 t = ((cfg1.win 2).blk t).view.read (Elt Ideal) (reluRowsTimes (V c main_v48) (V c main_arg5)) := by
  show (cfg1.win 2).cut (grid1.coords t) ((dat1 V c).after 2 t) = _
  rw [after1_2]
  unfold out1_2
  rw [View.canon_unit_zero origin]
  simp only [View.ld_unit_zero (S := S10000x32) origin, View.ld_unit_zero (S := S32x16) origin]
  obtain ⟨e0, e1, e2, e3, e4, e5⟩ := block_indices t
  funext j
  obtain ⟨r, n, rfl⟩ : ∃ (r : Fin 10000) (n : Fin 16), j = ix2 r n := ⟨j 0, j 1, eq_ix2 j⟩
  show k1_pay1 (F := Ideal) (iblk1 V c 0 t) (iblk1 V c 1 t) (ix2 r n)
    = reluRowsTimes (V c main_v48) (V c main_arg5) (((cfg1.win 2).blk t).view.emb (ix2 r n))
  rw [block_entry]
  unfold reluRowsTimes
  refine Finset.sum_congr rfl fun k _ => ?_
  have hx : iblk1 V c 0 t (ix2 r k) = V c main_v48 (ix2 (⟨((((cfg1.win 2).blk t).view.emb (ix2 r n)) 0).val, ((((cfg1.win 2).blk t).view.emb (ix2 r n)) 0).isLt⟩ : Fin 100000) k) := by
    show V c main_v48 (((cfg1.win 0).blk t).view.emb (ix2 r k)) = _
    refine congrArg (V c main_v48) (funext fun a => Fin.ext ?_)
    match a with
    | ⟨0, _⟩ => show win1_0.index t (0 : Fin 2) * 10000 + 1 * r.val = win1_2.index t (0 : Fin 2) * 10000 + 1 * r.val; omega
    | ⟨1, _⟩ => show win1_0.index t (1 : Fin 2) * 32 + 1 * k.val = k.val; omega
  have hw : iblk1 V c 1 t (ix2 k n) = V c main_arg5 (ix2 k (⟨((((cfg1.win 2).blk t).view.emb (ix2 r n)) 1).val, ((((cfg1.win 2).blk t).view.emb (ix2 r n)) 1).isLt⟩ : Fin 16)) := by
    show V c main_arg5 (((cfg1.win 1).blk t).view.emb (ix2 k n)) = _
    refine congrArg (V c main_arg5) (funext fun a => Fin.ext ?_)
    match a with
    | ⟨0, _⟩ => show win1_1.index t (0 : Fin 2) * 32 + 1 * k.val = k.val; omega
    | ⟨1, _⟩ => show win1_1.index t (1 : Fin 2) * 16 + 1 * n.val = win1_2.index t (1 : Fin 2) * 16 + 1 * n.val; omega
  rw [hx, hw]

/-- An index of the output is in point `t`'s block iff each coordinate is in the block's range on its axis. -/
theorem mem_block (t : Fin cfg1.N) (i : S100000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v49).slice (win1_2.rect t)).set ↔ _
  rw [View.set_slice_whole, Rect.mem_set_unit]
  exact Iff.rfl

/-- The ten row blocks cover the output: row `i` lies in block `i / 10000`. -/
theorem covered (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  obtain ⟨t, ht⟩ := block_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 16 ≤ (i 1).val ∧ (i 1).val < win1_2.index t (1 : Fin 2) * 16 + 16; omega

/-- After the region its output array is the whole rectified product of the two arrays it found on entry. -/
theorem output_eq (c : Dev nD) :
    (dat1 V c).arrAt 2 cfg1.N = reluRowsTimes (V c main_v48) (V c main_arg5) :=
  (dat1 V c).arrAt_eq_of_cover 2 (reluRowsTimes (V c main_v48) (V c main_arg5)) (fun t _ => flushed_eq V c t) covered

end Cert.GcnValue.Layer2Product

end
-- ==== Proof.LibKeepdims.lean ====
/-
  A row reduction that keeps its axis (`jnp.sum(x, axis=-1, keepdims=True)`, a mean or a variance per row) lowers to
  a reduction to `[a]`, a shape cast to the column `[a, 1]`, and — when the row statistic meets the rows again — a
  broadcast of that column to `[a, b]`. Read at an index given by coordinates:
  • the column cast `[a] → [a, 1]` at `(i, u)` is the vector at `i` (the unit coordinate `u` carries nothing);
  • the column broadcast `[a, 1] → [a, b]` at `(p, c)` is the column at `(p, 0)`: every entry of row `p` sees the
    one statistic of row `p`.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.DecodeSum.lean ====
/-
  The decoder's inner products, as the third pallas_call computes them.

  The call walks the 200000 candidate edges in ten blocks of 20000.  At block `t` it multiplies the two gathered
  20000 × 16 blocks entry by entry, adds each row's sixteen products from zero, and writes the 20000 sums, kept as a
  column, to rows `20000·t … 20000·t + 19999` of the 200000 × 1 output.  So the output array is the one function
  `rowDots a b (i, 0) = Σₖ a (i, k) · b (i, k)`: the inner product of row `i` of the two operands.
-/
import proofs.«159415_j32315333935772_1_alg».proof.Proof.Gen.KernelIdeal.Frame
import proofs.«159415_j32315333935772_1_alg».proof.Proof.LibKeepdims
import Idealize.ShloMosaic.Lib.Pipeline.Value
import Idealize.ShloMosaic.Lib.ValueIdx
import Idealize.ShloMosaic.PureOps.Ideal.Laws

set_option maxRecDepth 16384

noncomputable section

open scoped BigOperators

namespace Cert.GcnValue.DecodeSum

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- Row by row, the inner product of two 200000 × 16 arrays over the extended reals, kept as a column. -/
def rowDots (a b : S200000x16.Idx → EReal) : S200000x1.Idx → EReal :=
  fun i => ∑ k : Fin 16, a (ix2 (⟨(i 0).val, (i 0).isLt⟩ : Fin 200000) k) * b (ix2 (⟨(i 0).val, (i 0).isLt⟩ : Fin 200000) k)

/-- One block's column at the entry `(r, u)`: the inner product of row `r` of the two blocks. -/
theorem block_entry (x0 x1 : Vec Ideal S20000x16 .f32) (r : Fin 20000) (u : Fin 1) :
    k2_pay1 (F := Ideal) x0 x1 (ix2 r u) = ∑ k : Fin 16, x0 (ix2 r k) * x1 (ix2 r k) := by
  unfold k2_pay1
  rw [shapeCast_self, shapeCast_self, Cert.Keepdims.shapeCast_a_a1_apply]
  refine (Ideal.multiReduction_add_single (mulf x0 x1) 0x00000000#32 reduces_S20000x16_S20000 _ _ (ix1 r)).trans ?_
  refine Finset.sum_congr rfl fun k _ => ?_
  rw [mulf_apply]
  have e : reduces_S20000x16_S20000.lift (ix1 r) k = ix2 r k :=
    funext fun a => Fin.ext (by match a with | ⟨0, _⟩ => rfl | ⟨1, _⟩ => rfl)
  rw [e]
  rfl

theorem origin : (![0, 0] : Fin 2 → Nat) = fun _ => 0 := funext fun a => by fin_cases a <;> rfl

/-- Where the three windows' blocks sit at point `t`: the row blocks of the two operands and of the output move together. -/
theorem block_indices : ∀ t : Fin cfg2.N, win2_0.index t (0 : Fin 2) = win2_2.index t (0 : Fin 2)
    ∧ win2_0.index t (1 : Fin 2) = 0
    ∧ win2_1.index t (0 : Fin 2) = win2_2.index t (0 : Fin 2)
    ∧ win2_1.index t (1 : Fin 2) = 0
    ∧ win2_2.index t (1 : Fin 2) = 0
    ∧ win2_2.index t (0 : Fin 2) ≤ 9 :=
  (by decide +kernel : ∀ t : Fin grid2.N, _)

/-- Every row block of the output is some point's. -/
theorem block_onto : ∀ q : Fin 10, ∃ t : Fin cfg2.N, win2_2.index t = ![q.val, 0] :=
  (by decide +kernel : ∀ q : Fin 10, ∃ t : Fin grid2.N, win2_2.index t = ![q.val, 0])

variable (V : (c : Dev nD) → (b : Ref sig .tc) → Buf (Elt Ideal) ((c : Thread nD τ).loc b))

/-- What point `t` writes back is block `t` of the column of row inner products of the arrays the region finds. -/
theorem flushed_eq (c : Dev nD) (t : Fin cfg2.N) :
    (dat2 V c).flushed 2 t = ((cfg2.win 2).blk t).view.read (Elt Ideal) (rowDots (V c main_v74) (V c main_v83)) := by
  show (cfg2.win 2).cut (grid2.coords t) ((dat2 V c).after 2 t) = _
  rw [after2_2]
  unfold out2_2
  rw [View.canon_unit_zero origin]
  simp only [View.ld_unit_zero (S := S20000x16) origin]
  obtain ⟨e0, e1, e2, e3, e4, e5⟩ := block_indices t
  funext j
  obtain ⟨r, u, rfl⟩ : ∃ (r : Fin 20000) (u : Fin 1), j = ix2 r u := ⟨j 0, j 1, eq_ix2 j⟩
  show k2_pay1 (F := Ideal) (iblk2 V c 0 t) (iblk2 V c 1 t) (ix2 r u)
    = rowDots (V c main_v74) (V c main_v83) (((cfg2.win 2).blk t).view.emb (ix2 r u))
  rw [block_entry]
  unfold rowDots
  refine Finset.sum_congr rfl fun k _ => ?_
  have ha : iblk2 V c 0 t (ix2 r k) = V c main_v74 (ix2 (⟨((((cfg2.win 2).blk t).view.emb (ix2 r u)) 0).val, ((((cfg2.win 2).blk t).view.emb (ix2 r u)) 0).isLt⟩ : Fin 200000) k) := by
    show V c main_v74 (((cfg2.win 0).blk t).view.emb (ix2 r k)) = _
    refine congrArg (V c main_v74) (funext fun a => Fin.ext ?_)
    match a with
    | ⟨0, _⟩ => show win2_0.index t (0 : Fin 2) * 20000 + 1 * r.val = win2_2.index t (0 : Fin 2) * 20000 + 1 * r.val; omega
    | ⟨1, _⟩ => show win2_0.index t (1 : Fin 2) * 16 + 1 * k.val = k.val; omega
  have hb : iblk2 V c 1 t (ix2 r k) = V c main_v83 (ix2 (⟨((((cfg2.win 2).blk t).view.emb (ix2 r u)) 0).val, ((((cfg2.win 2).blk t).view.emb (ix2 r u)) 0).isLt⟩ : Fin 200000) k) := by
    show V c main_v83 (((cfg2.win 1).blk t).view.emb (ix2 r k)) = _
    refine congrArg (V c main_v83) (funext fun a => Fin.ext ?_)
    match a with
    | ⟨0, _⟩ => show win2_1.index t (0 : Fin 2) * 20000 + 1 * r.val = win2_2.index t (0 : Fin 2) * 20000 + 1 * r.val; omega
    | ⟨1, _⟩ => show win2_1.index t (1 : Fin 2) * 16 + 1 * k.val = k.val; omega
  rw [ha, hb]

/-- An index of the output is in point `t`'s block iff each coordinate is in the block's range on its axis. -/
theorem mem_block (t : Fin cfg2.N) (i : S200000x1.Idx) :
    i ∈ ((cfg2.win 2).blk t).view.set ↔ ∀ a : Fin 2, win2_2.index t a * S20000x1.size a ≤ (i a).val ∧ (i a).val < win2_2.index t a * S20000x1.size a + S20000x1.size a := by
  show i ∈ ((View.whole main_v84).slice (win2_2.rect t)).set ↔ _
  rw [View.set_slice_whole, Rect.mem_set_unit]
  exact Iff.rfl

/-- The ten row blocks cover the output column: row `i` lies in block `i / 20000`. -/
theorem covered (i : S200000x1.Idx) :
    ∃ t : Fin cfg2.N, (cfg2.win 2).flush t = true ∧ i ∈ ((cfg2.win 2).blk t).view.set := by
  have hi0 : (i 0).val < 200000 := (i 0).isLt
  have hi1 : (i 1).val < 1 := (i 1).isLt
  obtain ⟨t, ht⟩ := block_onto ⟨(i 0).val / 20000, by omega⟩
  have q0 : win2_2.index t (0 : Fin 2) = (i 0).val / 20000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 20000 ≤ (i 0).val ∧ (i 0).val < win2_2.index t (0 : Fin 2) * 20000 + 20000; omega
  | ⟨1, _⟩ => show win2_2.index t (1 : Fin 2) * 1 ≤ (i 1).val ∧ (i 1).val < win2_2.index t (1 : Fin 2) * 1 + 1; omega

/-- After the region its output column holds the row inner products of the two arrays it found on entry. -/
theorem output_eq (c : Dev nD) :
    (dat2 V c).arrAt 2 cfg2.N = rowDots (V c main_v74) (V c main_v83) :=
  (dat2 V c).arrAt_eq_of_cover 2 (rowDots (V c main_v74) (V c main_v83)) (fun t _ => flushed_eq V c t) covered

end Cert.GcnValue.DecodeSum

end
-- ==== Proof.LibColumnFlat.lean ====
/-
  A column read back as a vector.

  A per-row result kept as a column `[a, 1]` (`jnp.sum(…, keepdims=True)` inside a kernel) is flattened on the host by
  `reshape(-1)`: the cast `[a, 1] → [a]` at `i` is the column at `(i, 0)`, both at row-major position `i`.
-/
import Idealize.ShloMosaic.Lib.ValueLayout

namespace Cert.ColumnFlat

open Idealize.ShloMosaic Idealize.ShloMosaic.ValueIdx

variable {α : Type}

/-- An `[a, 1]` column cast to the vector `[a]` reads, at `i`, the column's entry of row `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.ColumnFlat
-- ==== Proof.StageBridge.lean ====
/-
  The reference's three arithmetic stages, entry by entry.

  On the extended reals the reference's two `dot_general`s are the plain sums `Σₖ l (i, k) · r (k, n)` — the second over
  the rectified first layer, `max h 0` — and its final `reduce add` over the last axis, from zero, is the row sum
  `Σₖ a (i, k) · b (i, k)` of the product of the two gathered arrays.  These are the three whole-array functions the
  pallas_calls were shown to compute; the last one the kernel keeps as a column and flattens afterwards.
-/
import proofs.«159415_j32315333935772_1_alg».proof.Proof.RefRead
import proofs.«159415_j32315333935772_1_alg».proof.Proof.Layer1Product
import proofs.«159415_j32315333935772_1_alg».proof.Proof.Layer2Product
import proofs.«159415_j32315333935772_1_alg».proof.Proof.DecodeSum
import proofs.«159415_j32315333935772_1_alg».proof.Proof.LibColumnFlat
import Idealize.ShloMosaic.Lib.Pipeline.Value
import Idealize.ShloMosaic.Lib.ValueIdx
import Idealize.ShloMosaic.PureOps.Ideal.Laws

set_option maxRecDepth 16384

noncomputable section

open scoped BigOperators

namespace Cert.GcnValue.StageBridge

open Cert.KernelIdeal Cert.ReferenceIdeal.ReadCopy
open Idealize.ShloMosaic Idealize.ShloMosaic.ValueIdx

/-- The first layer's `x @ W1` is the plain product. -/
theorem first_product (x0 : (⟨S100000x128, .f32⟩ : BufTy).Contents (Elt Ideal)) (x3 : (⟨S128x32, .f32⟩ : BufTy).Contents (Elt Ideal)) :
    val_main_v4 (F := Ideal) x0 x3 = Layer1Product.rowsTimes x0 x3 := by
  funext i
  rw [val_main_v4_apply]
  unfold Layer1Product.rowsTimes
  refine Finset.sum_congr rfl fun k _ => ?_
  have el : lidx_main_v4 i k = ix2 (⟨(i 0).val, (i 0).isLt⟩ : Fin 100000) k :=
    funext fun a => by match a with | ⟨0, _⟩ => rfl | ⟨1, _⟩ => rfl
  have er : ridx_main_v4 i k = ix2 k (⟨(i 1).val, (i 1).isLt⟩ : Fin 32) :=
    funext fun a => by match a with | ⟨0, _⟩ => rfl | ⟨1, _⟩ => rfl
  rw [el, er]

/-- The second layer's `relu(h) @ W2` is the rectified plain product of the first layer's output. -/
theorem second_product (x0 : (⟨S100000x128, .f32⟩ : BufTy).Contents (Elt Ideal)) (x1 : (⟨S2x3200000, .i32⟩ : BufTy).Contents (Elt Ideal))
    (x3 : (⟨S128x32, .f32⟩ : BufTy).Contents (Elt Ideal)) (x4 : (⟨S32, .f32⟩ : BufTy).Contents (Elt Ideal)) (x5 : (⟨S32x16, .f32⟩ : BufTy).Contents (Elt Ideal)) :
    val_main_v50 (F := Ideal) x0 x1 x3 x4 x5
      = Layer2Product.reluRowsTimes (val_main_v48 (F := Ideal) x0 x1 x3 x4) x5 := by
  funext i
  rw [val_main_v50_apply]
  unfold Layer2Product.reluRowsTimes
  refine Finset.sum_congr rfl fun k _ => ?_
  have el : lidx_main_v50 i k = ix2 (⟨(i 0).val, (i 0).isLt⟩ : Fin 100000) k :=
    funext fun a => by match a with | ⟨0, _⟩ => rfl | ⟨1, _⟩ => rfl
  have er : ridx_main_v50 i k = ix2 k (⟨(i 1).val, (i 1).isLt⟩ : Fin 16) :=
    funext fun a => by match a with | ⟨0, _⟩ => rfl | ⟨1, _⟩ => rfl
  rw [el, er, val_main_v49_apply, val_main_call1_v0_apply, val_main_call1_cst_apply]
  rfl

/-- The decoder's `sum(zi * zj, axis=-1)` is the column of row inner products, flattened. -/
theorem decoder_sum (x0 : (⟨S100000x128, .f32⟩ : BufTy).Contents (Elt Ideal)) (x1 : (⟨S2x3200000, .i32⟩ : BufTy).Contents (Elt Ideal)) (x2 : (⟨S2x200000, .i32⟩ : BufTy).Contents (Elt Ideal))
    (x3 : (⟨S128x32, .f32⟩ : BufTy).Contents (Elt Ideal)) (x4 : (⟨S32, .f32⟩ : BufTy).Contents (Elt Ideal)) (x5 : (⟨S32x16, .f32⟩ : BufTy).Contents (Elt Ideal)) (x6 : (⟨S16, .f32⟩ : BufTy).Contents (Elt Ideal))
    (hflat : S200000x1.ShapeCasts S200000) :
    val_main_v114 (F := Ideal) x0 x1 x2 x3 x4 x5 x6
      = shapeCast S200000 (DecodeSum.rowDots (val_main_v103 (F := Ideal) x0 x1 x2 x3 x4 x5 x6)
          (val_main_v112 (F := Ideal) x0 x1 x2 x3 x4 x5 x6)) hflat := by
  funext i
  obtain ⟨r, rfl⟩ : ∃ r : Fin 200000, i = ix1 r := ⟨i 0, eq_ix1 i⟩
  rw [val_main_v114_apply, Cert.ColumnFlat.shapeCast_a1_a_apply]
  unfold DecodeSum.rowDots
  rw [val_main_cst_26_apply]
  show Ideal.ofBits .f32 0x00000000#32 + _ = _
  rw [Ideal.ofBits_zero_f32, zero_add]
  refine Finset.sum_congr rfl fun k _ => ?_
  rw [val_main_v113_apply]
  have e : idx_main_v114 (ix1 r) k = ix2 r k :=
    funext fun a => by match a with | ⟨0, _⟩ => rfl | ⟨1, _⟩ => rfl
  rw [e]
  rfl

end Cert.GcnValue.StageBridge

end
-- ==== Proof.KernelValue.lean ====
/-
  The value of the kernel's program: its result is the reference's.

  The program is six stretches of host operations around three pallas_calls.  Its run hands the result buffer over at
  the buffer contents after the last stretch; those contents are a fold from the launch memory, through each stretch
  (the operations applied in order) and each call (its arrays at what the call's write-backs leave, every other buffer
  untouched).  Reading the fold forward from the launch:
  • before the first call the buffers of `s`, `d` and `norm` hold the reference's values of them, and the arguments are
    untouched;
  • the first call leaves `x @ W1`, the reference's first product; the stretch after it the reference's first-layer
    output `h`;
  • the second call leaves `relu(h) @ W2`, the reference's second product; the stretch after it the two gathered
    embedding arrays of the candidate edges, the reference's (whose second copy of `s`, `d`, `norm` is the first);
  • the third call leaves the column of their row inner products, and the last operation flattens it: the reference's
    final sum over the last axis.
-/
import proofs.«159415_j32315333935772_1_alg».proof.Proof.KernelRun
import proofs.«159415_j32315333935772_1_alg».proof.Proof.HostStages
import proofs.«159415_j32315333935772_1_alg».proof.Proof.StageBridge

set_option maxRecDepth 16384

noncomputable section

namespace Cert.GcnValue.KernelValue

open Cert.KernelIdeal Cert.KernelIdeal.Gen Cert.ReferenceIdeal.ReadCopy
open Idealize.ShloMosaic Idealize.ShloMosaic.TcCoe Idealize.SL.Sem
open Cert.GcnValue

variable (m : (ℓ : Loc nD τ sig) → Buf (Elt Ideal) ℓ) (ρ : Dev nD → PrngReg) (c : Dev nD)

/-! ## Entering the first call -/

theorem w3_src : W3 m ρ c (Proc.devRef .tc main_v5) = val_main_v6 (F := Ideal) (m ((c : Thread nD τ).loc main_arg1)) :=
  HostStages.src_eq (W0 m ρ c) (m ((c : Thread nD τ).loc main_arg1)) rfl
theorem w3_dst : W3 m ρ c (Proc.devRef .tc main_v6) = val_main_v7 (F := Ideal) (m ((c : Thread nD τ).loc main_arg1)) :=
  HostStages.dst_eq (W0 m ρ c) (m ((c : Thread nD τ).loc main_arg1)) rfl
theorem w3_norm : W3 m ρ c (Proc.devRef .tc main_v31) = val_main_v32 (F := Ideal) (m ((c : Thread nD τ).loc main_arg1)) :=
  HostStages.norm_eq (W0 m ρ c) (m ((c : Thread nD τ).loc main_arg1)) rfl
theorem w3_a0 : W3 m ρ c (Proc.devRef .tc main_arg0) = (m ((c : Thread nD τ).loc main_arg0)) := (HostStages.kept_before_first (W0 m ρ c)).1
theorem w3_a2 : W3 m ρ c (Proc.devRef .tc main_arg2) = (m ((c : Thread nD τ).loc main_arg2)) := (HostStages.kept_before_first (W0 m ρ c)).2.1
theorem w3_a3 : W3 m ρ c (Proc.devRef .tc main_arg3) = (m ((c : Thread nD τ).loc main_arg3)) := (HostStages.kept_before_first (W0 m ρ c)).2.2.1
theorem w3_a4 : W3 m ρ c (Proc.devRef .tc main_arg4) = (m ((c : Thread nD τ).loc main_arg4)) := (HostStages.kept_before_first (W0 m ρ c)).2.2.2.1
theorem w3_a5 : W3 m ρ c (Proc.devRef .tc main_arg5) = (m ((c : Thread nD τ).loc main_arg5)) := (HostStages.kept_before_first (W0 m ρ c)).2.2.2.2.1
theorem w3_a6 : W3 m ρ c (Proc.devRef .tc main_arg6) = (m ((c : Thread nD τ).loc main_arg6)) := (HostStages.kept_before_first (W0 m ρ c)).2.2.2.2.2

/-! ## Leaving the first call -/

theorem w4_src : W4 m ρ c (Proc.devRef .tc main_v5) = val_main_v6 (F := Ideal) (m ((c : Thread nD τ).loc main_arg1)) :=
  (W4_of_ne m ρ c main_v5 (by decide)).trans (w3_src m ρ c)
theorem w4_dst : W4 m ρ c (Proc.devRef .tc main_v6) = val_main_v7 (F := Ideal) (m ((c : Thread nD τ).loc main_arg1)) :=
  (W4_of_ne m ρ c main_v6 (by decide)).trans (w3_dst m ρ c)
theorem w4_norm : W4 m ρ c (Proc.devRef .tc main_v31) = val_main_v32 (F := Ideal) (m ((c : Thread nD τ).loc main_arg1)) :=
  (W4_of_ne m ρ c main_v31 (by decide)).trans (w3_norm m ρ c)
theorem w4_a2 : W4 m ρ c (Proc.devRef .tc main_arg2) = (m ((c : Thread nD τ).loc main_arg2)) := (W4_of_ne m ρ c main_arg2 (by decide)).trans (w3_a2 m ρ c)
theorem w4_a4 : W4 m ρ c (Proc.devRef .tc main_arg4) = (m ((c : Thread nD τ).loc main_arg4)) := (W4_of_ne m ρ c main_arg4 (by decide)).trans (w3_a4 m ρ c)
theorem w4_a5 : W4 m ρ c (Proc.devRef .tc main_arg5) = (m ((c : Thread nD τ).loc main_arg5)) := (W4_of_ne m ρ c main_arg5 (by decide)).trans (w3_a5 m ρ c)
theorem w4_a6 : W4 m ρ c (Proc.devRef .tc main_arg6) = (m ((c : Thread nD τ).loc main_arg6)) := (W4_of_ne m ρ c main_arg6 (by decide)).trans (w3_a6 m ρ c)

/-- The first call's output is the reference's first product of the launched `x` and `W1`. -/
theorem w4_product : W4 m ρ c (Proc.devRef .tc main_v32) = val_main_v4 (F := Ideal) (m ((c : Thread nD τ).loc main_arg0)) (m ((c : Thread nD τ).loc main_arg3)) :=
  calc W4 m ρ c (Proc.devRef .tc main_v32)
    _ = (dat0 (V3 m ρ) c).arrAt 2 cfg0.N := W4_arr m ρ c 2
    _ = Layer1Product.rowsTimes (V3 m ρ c main_arg0) (V3 m ρ c main_arg3) := Layer1Product.output_eq (V3 m ρ) c
    _ = Layer1Product.rowsTimes (m ((c : Thread nD τ).loc main_arg0)) (m ((c : Thread nD τ).loc main_arg3)) := by
          rw [show V3 m ρ c main_arg0 = (m ((c : Thread nD τ).loc main_arg0)) from w3_a0 m ρ c, show V3 m ρ c main_arg3 = (m ((c : Thread nD τ).loc main_arg3)) from w3_a3 m ρ c]
    _ = val_main_v4 (F := Ideal) (m ((c : Thread nD τ).loc main_arg0)) (m ((c : Thread nD τ).loc main_arg3)) := (StageBridge.first_product _ _).symm

/-! ## Entering the second call -/

/-- The first layer's output. -/
theorem w5_layer : W5 m ρ c (Proc.devRef .tc main_v48) = val_main_v48 (F := Ideal) (m ((c : Thread nD τ).loc main_arg0)) (m ((c : Thread nD τ).loc main_arg1)) (m ((c : Thread nD τ).loc main_arg3)) (m ((c : Thread nD τ).loc main_arg4)) :=
  HostStages.layer1_eq (W4 m ρ c) _ _ _ _ (w4_src m ρ c) (w4_dst m ρ c) (w4_norm m ρ c) (w4_product m ρ c) (w4_a4 m ρ c)
theorem w5_src : W5 m ρ c (Proc.devRef .tc main_v5) = val_main_v6 (F := Ideal) (m ((c : Thread nD τ).loc main_arg1)) :=
  (HostStages.kept_between (W4 m ρ c)).1.trans (w4_src m ρ c)
theorem w5_dst : W5 m ρ c (Proc.devRef .tc main_v6) = val_main_v7 (F := Ideal) (m ((c : Thread nD τ).loc main_arg1)) :=
  (HostStages.kept_between (W4 m ρ c)).2.1.trans (w4_dst m ρ c)
theorem w5_norm : W5 m ρ c (Proc.devRef .tc main_v31) = val_main_v32 (F := Ideal) (m ((c : Thread nD τ).loc main_arg1)) :=
  (HostStages.kept_between (W4 m ρ c)).2.2.1.trans (w4_norm m ρ c)
theorem w5_a2 : W5 m ρ c (Proc.devRef .tc main_arg2) = (m ((c : Thread nD τ).loc main_arg2)) := (HostStages.kept_between (W4 m ρ c)).2.2.2.1.trans (w4_a2 m ρ c)
theorem w5_a5 : W5 m ρ c (Proc.devRef .tc main_arg5) = (m ((c : Thread nD τ).loc main_arg5)) := (HostStages.kept_between (W4 m ρ c)).2.2.2.2.1.trans (w4_a5 m ρ c)
theorem w5_a6 : W5 m ρ c (Proc.devRef .tc main_arg6) = (m ((c : Thread nD τ).loc main_arg6)) := (HostStages.kept_between (W4 m ρ c)).2.2.2.2.2.trans (w4_a6 m ρ c)

/-! ## Leaving the second call -/

theorem w6_src : W6 m ρ c (Proc.devRef .tc main_v5) = val_main_v6 (F := Ideal) (m ((c : Thread nD τ).loc main_arg1)) :=
  (W6_of_ne m ρ c main_v5 (by decide)).trans (w5_src m ρ c)
theorem w6_dst : W6 m ρ c (Proc.devRef .tc main_v6) = val_main_v7 (F := Ideal) (m ((c : Thread nD τ).loc main_arg1)) :=
  (W6_of_ne m ρ c main_v6 (by decide)).trans (w5_dst m ρ c)
theorem w6_norm : W6 m ρ c (Proc.devRef .tc main_v31) = val_main_v32 (F := Ideal) (m ((c : Thread nD τ).loc main_arg1)) :=
  (W6_of_ne m ρ c main_v31 (by decide)).trans (w5_norm m ρ c)
theorem w6_a2 : W6 m ρ c (Proc.devRef .tc main_arg2) = (m ((c : Thread nD τ).loc main_arg2)) := (W6_of_ne m ρ c main_arg2 (by decide)).trans (w5_a2 m ρ c)
theorem w6_a6 : W6 m ρ c (Proc.devRef .tc main_arg6) = (m ((c : Thread nD τ).loc main_arg6)) := (W6_of_ne m ρ c main_arg6 (by decide)).trans (w5_a6 m ρ c)

/-- The second call's output is the reference's second product. -/
theorem w6_product : W6 m ρ c (Proc.devRef .tc main_v49) = val_main_v50 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  calc W6 m ρ c (Proc.devRef .tc main_v49)
    _ = (dat1 (V5 m ρ) c).arrAt 2 cfg1.N := W6_arr m ρ c 2
    _ = Layer2Product.reluRowsTimes (V5 m ρ c main_v48) (V5 m ρ c main_arg5) := Layer2Product.output_eq (V5 m ρ) c
    _ = Layer2Product.reluRowsTimes (val_main_v48 (F := Ideal) (m ((c : Thread nD τ).loc main_arg0)) (m ((c : Thread nD τ).loc main_arg1)) (m ((c : Thread nD τ).loc main_arg3)) (m ((c : Thread nD τ).loc main_arg4))) (m ((c : Thread nD τ).loc main_arg5)) := by
          rw [show V5 m ρ c main_v48 = val_main_v48 (F := Ideal) (m ((c : Thread nD τ).loc main_arg0)) (m ((c : Thread nD τ).loc main_arg1)) (m ((c : Thread nD τ).loc main_arg3)) (m ((c : Thread nD τ).loc main_arg4)) from w5_layer m ρ c,
            show V5 m ρ c main_arg5 = (m ((c : Thread nD τ).loc main_arg5)) from w5_a5 m ρ c]
    _ = val_main_v50 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := (StageBridge.second_product _ _ _ _ _).symm

/-! ## Entering the third call -/

/-- The embeddings of the candidate edges' first endpoints … -/
theorem w7_left : W7 m ρ c (Proc.devRef .tc main_v74) = val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  HostStages.left_eq (W6 m ρ c) _ _ _ _ _ _ _ ((w6_src m ρ c).trans (HostStages.again_src _).symm)
    ((w6_dst m ρ c).trans (HostStages.again_dst _).symm) ((w6_norm m ρ c).trans (HostStages.again_norm _).symm)
    (w6_product m ρ c) (w6_a6 m ρ c) (w6_a2 m ρ c)
/-- … and of their second endpoints. -/
theorem w7_right : W7 m ρ c (Proc.devRef .tc main_v83) = val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  HostStages.right_eq (W6 m ρ c) _ _ _ _ _ _ _ ((w6_src m ρ c).trans (HostStages.again_src _).symm)
    ((w6_dst m ρ c).trans (HostStages.again_dst _).symm) ((w6_norm m ρ c).trans (HostStages.again_norm _).symm)
    (w6_product m ρ c) (w6_a6 m ρ c) (w6_a2 m ρ c)

/-! ## Leaving the third call, and the return -/

/-- The third call's output column: the row inner products of the two gathered arrays. -/
theorem w8_column : W8 m ρ c (Proc.devRef .tc main_v84)
    = DecodeSum.rowDots (val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :=
  calc W8 m ρ c (Proc.devRef .tc main_v84)
    _ = (dat2 (V7 m ρ) c).arrAt 2 cfg2.N := W8_arr m ρ c 2
    _ = DecodeSum.rowDots (V7 m ρ c main_v74) (V7 m ρ c main_v83) := DecodeSum.output_eq (V7 m ρ) c
    _ = DecodeSum.rowDots (val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
          rw [show V7 m ρ c main_v74 = val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) from w7_left m ρ c,
            show V7 m ρ c main_v83 = val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) from w7_right m ρ c]

/-- What the program returns is the reference's result of the launched arguments. -/
theorem result_eq : W9 m ρ c (Proc.devRef .tc main_v85) = val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  calc W9 m ρ c (Proc.devRef .tc main_v85)
    _ = shapeCast S200000 (W8 m ρ c (Proc.devRef .tc main_v84)) shapeCasts_S200000x1_S200000 := HostStages.flat_eq (W8 m ρ c)
    _ = shapeCast S200000 (DecodeSum.rowDots (val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))))
          shapeCasts_S200000x1_S200000 := by rw [w8_column m ρ c]
    _ = val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := (StageBridge.decoder_sum _ _ _ _ _ _ _ _).symm

/-- Every weakly fair execution of the kernel's program terminates, nothing faulting, with its result buffer at the
    reference's result of the launched arguments and the arguments as launched. -/
theorem run : θ_run defs (onTc (τ := τ) (main (F := Ideal))) ⟨m, fun _ => 0, ρ⟩ (fun r => ∀ c : Dev nD,
      r.2.mem ((c.tc : Thread nD τ).loc main_v85) = val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩)
    (Cert.KernelIdeal.RunNamed.run_named (F := Ideal) m ρ)

end Cert.GcnValue.KernelValue

end
-- ==== Proof.lean ====
/-
  A two-layer graph convolution with a dot-product decoder, against its jnp reference, over the extended reals.

  Both programs build the edge list with a self-loop per node, the symmetric normalisation
  `norm = deg^(-1/2)[s] · deg^(-1/2)[d]` from the in-degrees, and compute
      h = scatter_add_d (norm · (x @ W1)[s]) + b1,      z = scatter_add_d (norm · (relu h @ W2)[s]) + b2,
      logits_e = Σₖ z[u_e, k] · z[v_e, k]
  for the candidate edges `(u_e, v_e)`.  The kernel's program runs the two dense products and the final row sums as
  pallas_calls over ten row blocks each and everything else on the host, with the very operations of the reference; it
  computes `s`, `d`, `norm` once where the reference computes them once per layer.  On the extended reals the narrowing of
  the products' operands to bfloat16 is the identity, a block product into a zero accumulator is the plain sum over the
  contracted coordinate, and the ten blocks tile each output, so each call leaves exactly the array the reference's
  `dot_general` (or final `reduce add`) does; no law beyond reading each operation at an index is used, and the
  precondition (finite inputs) is never opened.

  • `frame_Kernel`, `frame_KernelIdeal`: the generated frames of the two printed programs.
  • `frame_ReferenceIdeal`: the reference's run with its result dropped.
  • `preserves_Kernel_KernelIdeal`: the idealisation rewrote nothing.
  • `algebraic_KernelIdeal_ReferenceIdeal`: both runs end at the reference's last stage of the shared arguments
    (Proof/KernelValue.lean for the kernel's side).
-/
import proofs.«159415_j32315333935772_1_alg».proof.Defs
import proofs.«159415_j32315333935772_1_alg».proof.Proof.Gen.Kernel
import proofs.«159415_j32315333935772_1_alg».proof.Proof.Gen.Kernel.Skeleton
import proofs.«159415_j32315333935772_1_alg».proof.Proof.Gen.Kernel.Launch
import proofs.«159415_j32315333935772_1_alg».proof.Proof.Gen.Kernel.Points
import proofs.«159415_j32315333935772_1_alg».proof.Proof.Gen.Kernel.Frame
import proofs.«159415_j32315333935772_1_alg».proof.Proof.Gen.KernelIdeal
import proofs.«159415_j32315333935772_1_alg».proof.Proof.Gen.KernelIdeal.Skeleton
import proofs.«159415_j32315333935772_1_alg».proof.Proof.Gen.KernelIdeal.Launch
import proofs.«159415_j32315333935772_1_alg».proof.Proof.Gen.KernelIdeal.Points
import proofs.«159415_j32315333935772_1_alg».proof.Proof.Gen.KernelIdeal.Frame
import proofs.«159415_j32315333935772_1_alg».proof.Proof.Gen.ReferenceIdeal
import proofs.«159415_j32315333935772_1_alg».proof.Proof.Gen.Pre_finite_inputs
import proofs.«159415_j32315333935772_1_alg».proof.Proof.RefRun
import proofs.«159415_j32315333935772_1_alg».proof.Proof.RefRead
import proofs.«159415_j32315333935772_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference runs, and leaves its arguments alone: its run, the result forgotten. -/
theorem frame_reference : Cert.frame_ReferenceIdeal := fun m ρ _ =>
  (θ_run Cert.ReferenceIdeal.defs _ _).mono (fun _ h c => (h c).2) (Cert.ReferenceIdeal.RunCopy.run (F := Ideal) m ρ)

/-- From memories agreeing on the arguments both programs end with the reference's last stage of those arguments in
    their result buffers. -/
theorem algebraic : Cert.algebraic_KernelIdeal_ReferenceIdeal := by
  intro m ρ m' ρ' _ hagree
  refine ⟨fun c => Cert.ReferenceIdeal.ReadCopy.val_main_v114 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.GcnValue.KernelValue.run m ρ, ?_⟩
  refine (θ_run Cert.ReferenceIdeal.defs _ _).mono (fun _ h c => ⟨(h c).1.trans ?_, (h c).2⟩)
    (Cert.ReferenceIdeal.RunCopy.run (F := Ideal) m' ρ')
  rw [Cert.ReferenceIdeal.ReadCopy.val_main_v114_eq, (hagree c).1, (hagree c).2.1, (hagree c).2.2.1, (hagree c).2.2.2.1,
    (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
